-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S2048x2048 : Shape := ⟨2, ![2048, 2048]⟩
abbrev S1024x2048 : Shape := ⟨2, ![1024, 2048]⟩
abbrev S1x1024 : Shape := ⟨2, ![1, 1024]⟩
abbrev S2048x1024 : Shape := ⟨2, ![2048, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S1x4096, .f32⟩
  | .hbm, ⟨8, _⟩ => ⟨S4096x4096, .bf16⟩
  | .hbm, ⟨9, _⟩ => ⟨S8192x4096, .f32⟩
  | .hbm, ⟨10, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x2048, .bf16⟩
  | .local _ .vmem, ⟨9, _⟩ => ⟨S2048x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S2048x2048_S1024x2048_S2048x1024_1_1_0_0_n_n_wf : DotDims.WF S2048x2048 S1024x2048 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x4096.size a
  hwx1_0 : ∀ i : grid1.Coords, EltTy.bits .bf16 = 32 ∨ (Rect.block (s := S8192x4096) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KI.Reg0.lean ====
/-
  The first kernel region (the fused weight), for any entry contents `V` of the core's buffers: what each window's
  block is at a grid point, what the body leaves in the output's staging buffer (its one payload over the three
  input blocks), the region's proof data, and the body's obligation at every point.
-/
import proofs.«164427_j11673721110784_1_alg».proof.Proof.Gen.KernelIdeal.Launch
import proofs.«164427_j11673721110784_1_alg».proof.Proof.Gen.KernelIdeal.Skeleton
import proofs.«164427_j11673721110784_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one store -/

/-- The offsets of every access of the body are zero. -/
theorem off_zero0 : (![0, 0] : Fin 2 → Nat) = fun _ => 0 := funext fun a => by fin_cases a <;> rfl

/-- The output's one store tiles its buffer, so it covers it. -/
theorem cover0_3 (p0 : Vec F S1024x1024 .bf16) (y : S1024x1024.Idx) :
    ∃ pc ∈ ([⟨Rect.unit (s := S1024x1024) ![0, 0] S1024x1024.size Gen.inb_S1024x1024_S1024x1024_0_0, p0⟩] : List (View.Piece (Elt F) S1024x1024 .bf16)), y ∈ pc.1.set :=
  View.cover_of_tiled [⟨Rect.unit (s := S1024x1024) ![0, 0] S1024x1024.size Gen.inb_S1024x1024_S1024x1024_0_0, p0⟩] S1024x1024.size (by rfl) y

/-! ## The body's triple -/

set_option maxHeartbeats 1000000 in
/-- The kernel body on whole staging memrefs, the three inputs' at read contents and the output's at anything, runs
    to the continuation holding the inputs' as they were and the output's at the payload of the three: each load
    through the whole-shape rectangle at zero offsets reads the contents, and the one covering store leaves its
    payload. -/
theorem sound_kernel0 (c : Dev nD) (E : Set ℕ) (i : grid0.Coords)
    (arg2 : Memref sig .tc .vmem S1024x1024 .f32) (harg2 : arg2.IsWhole)
    (arg3 : Memref sig .tc .vmem S1024x16 .f32) (harg3 : arg3.IsWhole)
    (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k0_pay1 x1 x2 x0)) -∗ K ⟨⟩))
      ⊢ wp frame (wpE (defs₀ (F := F)) Variants.none c none) E (cc0__fuse_weight_kernel i arg2 harg2 arg3 harg3 arg4 harg4 arg5 harg5) K := by
  simp only [cc0__fuse_weight_kernel_eq_skeleton]; unfold cc0__fuse_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero off_zero0,
    View.readAt_eq_ld, View.readAt_eq_ld, View.readAt_eq_ld,
    View.ld_unit_zero off_zero0, View.ld_unit_zero off_zero0, View.ld_unit_zero off_zero0]

section

variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: the arrays as the region finds them; every input's staging buffer keeps its block;
    the output's holds the fused block W + 2·(B·A) of the three input blocks, narrowed to bf16. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 1 t) (iblk0 V c 2 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves in each input's buffer: its block, in place. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

theorem after0_3 (c : Dev nD) (t : Fin cfg0.N) :
    (dat0 V c).after 3 t = k0_pay1 (iblk0 V c 1 t) (iblk0 V c 2 t) (iblk0 V c 0 t) := by dsimp only [dat0]

/-! ## The inputs' staging buffers hold their blocks -/

/-- Each input window's current staging buffer holds its block at every point, fetched there or not: unfetched,
    the block index has not moved and the body left the previous point's block in place; the windows are uncut and
    never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Reg1.lean ====
/-
  The second kernel region (the blocked product with the fused weight, accumulated over the two halves of the
  contracted axis in a scratch buffer, the bias added at the second half), for any entry contents `V`: the
  blocks, what the scratch accumulator holds after each grid point, the region's proof data with the invariant
  that carries the accumulator from point to point, and the body's obligation.
-/
import proofs.«164427_j11673721110784_1_alg».proof.Proof.Gen.KernelIdeal.Launch
import proofs.«164427_j11673721110784_1_alg».proof.Proof.Gen.KernelIdeal.Skeleton
import proofs.«164427_j11673721110784_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off_zero1 : (![0, 0] : Fin 2 → Nat) = fun _ => 0 := funext fun a => by fin_cases a <;> rfl

/-- The first conditional's condition (the grid's last coordinate is 0), from the coordinates. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional's condition (the grid's last coordinate is 1). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output is idle and not written back; where it holds the output is live. -/
theorem idleAt1_3_A : ∀ t : Fin cfg1.N, ¬cond1_1 (grid1.coords t) → cfg1.idle 3 (grid1.coords t) = true := by decide +kernel
theorem noFlush1_3_A : ∀ t : Fin cfg1.N, ¬cond1_1 (grid1.coords t) → (cfg1.win 3).flush t = false := by decide +kernel
theorem liveAt1_3_B : ∀ t : Fin cfg1.N, cond1_1 (grid1.coords t) → cfg1.idle 3 (grid1.coords t) = false := by decide +kernel

set_option maxHeartbeats 4000000 in
/-- The body where the first condition holds and the second fails: from the input blocks `x`, `w`, `b` in their
    buffers, the output's buffer at `xi` and the accumulator at anything, it leaves everything but the accumulator
    as found and the accumulator at the zero fill plus the product of `x` and `w`. -/
theorem kernelRun1_A (c : Dev nD) (i : grid1.Coords)
    (arg3 : Memref sig .tc .vmem S2048x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc0 : cond1_0 i) (hc1 : ¬cond1_1 i)
    (x : Vec F S2048x2048 .bf16) (w : Vec F S1024x2048 .bf16) (b : Vec F S1x1024 .f32) (xi : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare xi ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare xi ∗ owns (c : Thread nD τ) arg7 fullShare (k1_pay2 (k1_pay1 (F := F)) x w)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero off_zero1 Gen.inb_S2048x1024_S2048x1024_0_0 y⟩)]
  sl_unfold_words
  rw [View.canon_cons_unit_zero (S := S2048x1024) off_zero1, View.readCov_unit_zero (S := S2048x1024) _ off_zero1]
  simp only [View.readAt_eq_ld, harg3.read_unread, harg4.read_unread, View.ld_unit_zero (S := S2048x2048) off_zero1, View.ld_unit_zero (S := S1024x2048) off_zero1]

set_option maxHeartbeats 4000000 in
/-- The body where the first condition fails and the second holds: from the input blocks `x`, `w`, `b` in their
    buffers, the accumulator at `s` and the output's buffer at anything, it leaves the inputs as found, the
    accumulator at `s` plus the product of `x` and `w`, and the output's buffer at that plus the bias row `b`. -/
theorem kernelRun1_B (c : Dev nD) (i : grid1.Coords)
    (arg3 : Memref sig .tc .vmem S2048x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc0 : ¬cond1_0 i) (hc1 : cond1_1 i)
    (x : Vec F S2048x2048 .bf16) (w : Vec F S1024x2048 .bf16) (b : Vec F S1x1024 .f32) (s : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 s x w) b) ∗ owns (c : Thread nD τ) arg7 fullShare (k1_pay2 s x w)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero off_zero1 Gen.inb_S2048x1024_S2048x1024_0_0 y⟩)]
    sl_unfold_words
    rw [View.canon_unit_zero off_zero1]
    rw [View.readCov_unit_zero (S := S2048x1024) _ off_zero1]
    simp only [View.readAt_eq_ld, harg3.read_unread, harg4.read_unread, harg5.read_unread, harg7.read_unread, View.ld_unit_zero (S := S2048x2048) off_zero1, View.ld_unit_zero (S := S1024x2048) off_zero1, View.ld_unit_zero (S := S2048x1024) off_zero1, View.ld_unit_zero (S := S1x1024) off_zero1]
  iexists _; isplitr
  swap; · iexact H7
  ipureintro
  sl_unfold_words
  rw [View.read_writes_eq_canon _ _ _ (fun y => ⟨_, List.mem_cons_self, View.mem_set_unit_zero off_zero1 Gen.inb_S2048x1024_S2048x1024_0_0 y⟩), View.canon_unit_zero off_zero1]
  simp only [View.readAt_eq_ld, harg3.read_unread, harg4.read_unread, harg7.read_unread, View.ld_unit_zero (S := S2048x2048) off_zero1, View.ld_unit_zero (S := S1024x2048) off_zero1, View.ld_unit_zero (S := S2048x1024) off_zero1]

/-- Each window's current staging memref at point `t`, as the pipeline passes it to the body, and its wholeness. -/
abbrev ms1_0 (t : Fin cfg1.N) : Memref sig .tc .vmem S2048x2048 .bf16 := win1_0.stage (cfg1.slots t 0)
abbrev hs1_0 (t : Fin cfg1.N) : (ms1_0 t).IsWhole := Gen.hstage1_0 ((cfg1.slots t 0).cast Gen.nbuf1_0)
abbrev ms1_1 (t : Fin cfg1.N) : Memref sig .tc .vmem S1024x2048 .bf16 := win1_1.stage (cfg1.slots t 1)
abbrev hs1_1 (t : Fin cfg1.N) : (ms1_1 t).IsWhole := Gen.hstage1_1 ((cfg1.slots t 1).cast Gen.nbuf1_1)
abbrev ms1_2 (t : Fin cfg1.N) : Memref sig .tc .vmem S1x1024 .f32 := win1_2.stage (cfg1.slots t 2)
abbrev hs1_2 (t : Fin cfg1.N) : (ms1_2 t).IsWhole := Gen.hstage1_2 ((cfg1.slots t 2).cast Gen.nbuf1_2)
abbrev ms1_3 (t : Fin cfg1.N) : Memref sig .tc .vmem S2048x1024 .f32 := win1_3.stage (cfg1.slots t 3)
abbrev hs1_3 (t : Fin cfg1.N) : (ms1_3 t).IsWhole := Gen.hstage1_3 ((cfg1.slots t 3).cast Gen.nbuf1_3)

section
variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after grid point `n`: at an even point (first half of the contracted axis) the zero
    fill plus the product of the point's blocks; at an odd point what the point before left plus the product. -/
def acc1 (c : Dev nD) : (n : ℕ) → n < cfg1.N → Vec F S2048x1024 .f32
  | 0, h => k1_pay2 (k1_pay1 (F := F)) (iblk1 V c 0 ⟨0, h⟩) (iblk1 V c 1 ⟨0, h⟩)
  | n + 1, h =>
    if (n + 1) % 2 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_even (c : Dev nD) (t : Fin cfg1.N) (h : t.val % 2 = 0) :
    acc1 V c t.val t.isLt = k1_pay2 (k1_pay1 (F := F)) (iblk1 V c 0 t) (iblk1 V c 1 t) := by
  obtain ⟨n, hn⟩ := t
  cases n with
  | zero => rfl
  | succ n => exact (if_pos h).trans rfl

theorem acc1_odd (c : Dev nD) (t : Fin cfg1.N) (h : t.val % 2 = 1) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd h (by show ¬(0 % 2 = 1); decide)
  | succ n =>
    have h' : ¬(n + 1) % 2 = 0 := fun e => by dsimp only at h; omega
    exact (if_neg h').trans rfl

/-- The scratch accumulator as a memref. -/
abbrev scM1 : Memref sig .tc .vmem S2048x1024 .f32 := Memref.whole cc1_scratch0

/-- The invariant between grid points: before the first point the class's (every scoped buffer no window stages at
    anything, the generator register); afterwards the same with the accumulator at what the point before left. -/
def PhiS1 (c : Dev nD) : (n : ℕ) → n ≤ cfg1.N → sProp 𝕄
  | 0, _ => Pipeline.ΦA spec1 c
  | n + 1, hn =>
    iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ owns (c : Thread nD τ) scM1 fullShare (acc1 V c n hn))
      ∗ ∃ r, prngReg c r)

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = k1_pay3 (acc1 V c t.val t.isLt) (iblk1 V c 2 t) := by dsimp only [dat1]
/-- The class's invariant with the accumulator as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) scM1 fullShare d))
      ∗ ∃ r, prngReg c r) := by
  unfold Pipeline.ΦA; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ owns (c : Thread nD τ) scM1 fullShare (acc1 V c n hn))
      ∗ ∃ r, prngReg c r) := rfl

/-- Before a point that is not the first: the accumulator at what the point before left. -/
theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ owns (c : Thread nD τ) scM1 fullShare (acc1 V c (n - 1) (by omega)))
      ∗ ∃ r, prngReg c r) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- The block an input window's array holds at a point is the block the region's entry contents hold there. -/
theorem blockOf1 (c : Dev nD) (w : Fin cfg1.W) (t : Fin cfg1.N) : (dat1 V c).blockOf w t = iblk1 V c w t := by
  unfold Dat.blockOf iblk1; rw [A_eq1]

/-- Each input's current staging buffer holds its block at every point, whether the point fetched it or not: the
    body leaves the block in place, and an unfetched window's block index has not moved. -/
theorem before1_0 (c : Dev nD) (t : Fin cfg1.N) (d) : (dat1 V c).before 0 t d = iblk1 V c 0 t := by
  have e := (dat1 V c).before_in_eq_fetched 0 rfl (fun _ => rfl) (fun _ _ _ => rfl)
    (fun u => (congrArg _ (after1_0 V c u)).trans (blockOf1 V c 0 u).symm) t d
  rw [e]; unfold Dat.fetched; rw [blockOf1]; rfl
theorem before1_1 (c : Dev nD) (t : Fin cfg1.N) (d) : (dat1 V c).before 1 t d = iblk1 V c 1 t := by
  have e := (dat1 V c).before_in_eq_fetched 1 rfl (fun _ => rfl) (fun _ _ _ => rfl)
    (fun u => (congrArg _ (after1_1 V c u)).trans (blockOf1 V c 1 u).symm) t d
  rw [e]; unfold Dat.fetched; rw [blockOf1]; rfl
theorem before1_2 (c : Dev nD) (t : Fin cfg1.N) (d) : (dat1 V c).before 2 t d = iblk1 V c 2 t := by
  have e := (dat1 V c).before_in_eq_fetched 2 rfl (fun _ => rfl) (fun _ _ _ => rfl)
    (fun u => (congrArg _ (after1_2 V c u)).trans (blockOf1 V c 2 u).symm) t d
  rw [e]; unfold Dat.fetched; rw [blockOf1]; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point. The inputs' buffers hold their blocks; the point's parity says which of the two runs
    applies. At an even point the invariant hands the accumulator over at anything (before the first point by the
    class's invariant, afterwards forgetting what the odd point before left), the output's buffer is idle and comes
    back as found; at an odd point the accumulator is handed over at what the even point before left and the output's
    buffer comes back at the accumulator plus the bias row. Either way the invariant takes the accumulator back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3_A t hc1) (noFlush1_3_A t hc1)]
    rw [acc1_even V c t h0]
    by_cases hz : t.val = 0
    · rw [PhiS1_castSucc V c t, PhiS1_zero V c _ _ hz, PhiA1_eq]
      iintro ⟨⟨⟨E1, E2, E3, E4, E5, E6, E7, E8, HS⟩, Hg⟩, Ho, ⟨%d0, H0⟩, ⟨%d1, H1⟩, ⟨%d2, H2⟩, ⟨%d3, H3⟩⟩
      iapply (kernelRun1_A c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [E1 E2 E3 E4 E5 E6 E7 E8 HS Hg]
      · isplitr [Hg]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [E8]; · iexact E8
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨E1, E2, E3, E4, E5, E6, E7, E8, HS⟩, Hg⟩, Ho, ⟨%d0, H0⟩, ⟨%d1, H1⟩, ⟨%d2, H2⟩, ⟨%d3, H3⟩⟩
      iapply (kernelRun1_A c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [E1 E2 E3 E4 E5 E6 E7 E8 HS Hg]
      · isplitr [Hg]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [E8]; · iexact E8
          iexact HS
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3_B t hc1], after1_3]
    rw [acc1_odd V c t h1]
    rw [PhiS1_castSucc V c t, PhiS1_pos V c _ _ hz]
    · iintro ⟨⟨⟨E1, E2, E3, E4, E5, E6, E7, E8, HS⟩, Hg⟩, Ho, ⟨%d0, H0⟩, ⟨%d1, H1⟩, ⟨%d2, H2⟩, ⟨%d3, H3⟩⟩
      iapply (kernelRun1_B c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [E1 E2 E3 E4 E5 E6 E7 E8 HS Hg]
      · isplitr [Hg]
        · isplitl [E1]; · iexact E1
          isplitl [E2]; · iexact E2
          isplitl [E3]; · iexact E3
          isplitl [E4]; · iexact E4
          isplitl [E5]; · iexact E5
          isplitl [E6]; · iexact E6
          isplitl [E7]; · iexact E7
          isplitl [E8]; · iexact E8
          iexact HS
        iexact Hg
      isplitl [Ho]; · iexact Ho
      isplitl [H0]; · iexact H0
      isplitl [H1]; · iexact H1
      isplitl [H2]; · iexact H2
      iexact H3

/-- The body's obligation at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class's back (the accumulator's contents forgotten). -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨E1, E2, E3, E4, E5, E6, E7, E8, HS⟩, Hg⟩
  isplitr [Hg]
  · isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    iexists _; iexact HS
  iexact Hg

end

end Cert.KernelIdeal.Hand

end
-- ==== Proof.KI.Run.lean ====
/-
  The whole program's run: @main is a stretch of host operations (the activations flattened and narrowed, the bias
  made a row), the two kernel regions one after the other, and one last host operation (the result unflattened).
  The contents of every buffer at each boundary are a fold from the launch memory: a host stretch applies its
  operations; a region leaves each of its arrays at what its write-backs made of it and every other buffer alone.
  Every weakly fair execution from a memory with zero counters terminates, and the final memory holds every
  unscoped buffer at the last boundary's contents. In particular each argument array ends as launched.
-/
import proofs.«164427_j11673721110784_1_alg».proof.Proof.KI.Reg0
import proofs.«164427_j11673721110784_1_alg».proof.Proof.KI.Reg1

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): region 0's arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: region 1's arrays at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host operation. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W2`, left with them at `W3`; the invariant starts as the
    class's and gives it back at the end, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (V2 m) c)
  hout c := by
    rw [Pipeline.ownSems0_none]
    exact (hout1 (V2 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE RUN: every weakly fair execution terminates and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Args.lean ====
/-
  What the run leaves in the argument arrays: no host operation writes one, and a region either stages it through
  an input window (never written back) or does not touch it, so the fold of boundary contents walks each argument
  back to the launch memory. Hence the frame: every execution terminates with the arguments as launched.
-/
import proofs.«164427_j11673721110784_1_alg».proof.Proof.KI.Run
import proofs.«164427_j11673721110784_1_alg».proof.Proof.Gen.KernelIdeal.Regions

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A reference the last host operation does not write keeps region 1's exit contents. -/
theorem W4_of (c : Dev nD) (r : Ref sig .tc) (h : r ∉ hostOps2_W) : W4 m c (Proc.devRef .tc r) = W3 m c (Proc.devRef .tc r) :=
  StableHlo.after_of_writes_sub hostOps2 _ hostOps2_writes h
/-- A reference the first host stretch does not write keeps its launch contents. -/
theorem W1_of (c : Dev nD) (r : Ref sig .tc) (h : r ∉ hostOps0_W) : W1 m c (Proc.devRef .tc r) = m ((c : Thread nD τ).loc r) :=
  StableHlo.after_of_writes_sub hostOps0 _ hostOps0_writes h

/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

theorem W4_main_arg0 (c : Dev nD) : W4 m c (Proc.devRef .tc main_arg0) = m ((c : Thread nD τ).loc main_arg0) :=
  (W4_of m c main_arg0 (by decide)).trans <| (W3_of_ne m c main_arg0 (by decide)).trans <|
    (W2_of_ne m c main_arg0 (by decide)).trans (W1_of m c main_arg0 (by decide))
theorem W4_main_arg1 (c : Dev nD) : W4 m c (Proc.devRef .tc main_arg1) = m ((c : Thread nD τ).loc main_arg1) :=
  (W4_of m c main_arg1 (by decide)).trans <| (W3_of_ne m c main_arg1 (by decide)).trans <|
    (W2_in m c 0 rfl).trans (W1_of m c main_arg1 (by decide))
theorem W4_main_arg2 (c : Dev nD) : W4 m c (Proc.devRef .tc main_arg2) = m ((c : Thread nD τ).loc main_arg2) :=
  (W4_of m c main_arg2 (by decide)).trans <| (W3_of_ne m c main_arg2 (by decide)).trans <|
    (W2_of_ne m c main_arg2 (by decide)).trans (W1_of m c main_arg2 (by decide))
theorem W4_main_arg3 (c : Dev nD) : W4 m c (Proc.devRef .tc main_arg3) = m ((c : Thread nD τ).loc main_arg3) :=
  (W4_of m c main_arg3 (by decide)).trans <| (W3_of_ne m c main_arg3 (by decide)).trans <|
    (W2_in m c 2 rfl).trans (W1_of m c main_arg3 (by decide))
theorem W4_main_arg4 (c : Dev nD) : W4 m c (Proc.devRef .tc main_arg4) = m ((c : Thread nD τ).loc main_arg4) :=
  (W4_of m c main_arg4 (by decide)).trans <| (W3_of_ne m c main_arg4 (by decide)).trans <|
    (W2_in m c 1 rfl).trans (W1_of m c main_arg4 (by decide))

/-- The run with the result buffer and the arguments read off the last boundary's contents. -/
theorem run_named : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v5 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_named m ρ)

end Cert.KernelIdeal.Hand

end
-- ==== Proof.Spec.lean ====
/-
  The two functions the certificate compares, over the extended reals, entry by entry of the
  [4, 2048, 4096] result, as functions of the five argument arrays
  x [4, 2048, 4096], W [4096, 4096], bias [4096], A [16, 4096], B [4096, 16]:

  * the fused weight  Weff(o, d) = W(o, d) + 2 · Σ_r B(o, r) · A(r, d)   (a rank-16 update of W);
  * `gk`: the kernel's entry, the row x(b, s, ·) against the row Weff(o, ·), the contracted axis cut in two
    halves of 2048 summed one after the other, plus bias(o);
  * `gref`: the reference's entry, (Σ_d x(b,s,d)·W(o,d) + bias(o)) + (Σ_r (Σ_d x(b,s,d)·A(r,d)) · B(o,r)) · 2.

  The literal 2 is kept as the word both programs print (`two`); nothing here evaluates it.
-/
import Idealize.ShloMosaic.Lib.ValueIdx
import Idealize.ShloMosaic.PureOps.Ideal

noncomputable section

namespace Cert.Spec

open Idealize.ShloMosaic Idealize.ShloMosaic.ValueIdx

abbrev SX : Shape := ⟨3, ![4, 2048, 4096]⟩
abbrev SW : Shape := ⟨2, ![4096, 4096]⟩
abbrev Sb : Shape := ⟨1, ![4096]⟩
abbrev SA : Shape := ⟨2, ![16, 4096]⟩
abbrev SB : Shape := ⟨2, ![4096, 16]⟩

/-- The scaling factor alpha / r = 2.0, as the f32 word both programs carry. -/
def two : EReal := Ideal.ofBits .f32 0x40000000#32

/-- The fused weight at (o, d). -/
def weff (W : SW.Idx → EReal) (A : SA.Idx → EReal) (B : SB.Idx → EReal) (o d : Fin 4096) : EReal :=
  W (ix2 o d) + two * ∑ r : Fin 16, B (ix2 o r) * A (ix2 r d)

/-- Position k of the first half of the contracted axis. -/
def lo (k : Fin 2048) : Fin 4096 := ⟨k.val, by have := k.isLt; omega⟩
/-- Position k of the second half. -/
def hi (k : Fin 2048) : Fin 4096 := ⟨2048 + k.val, by have := k.isLt; omega⟩

/-- The kernel's entry (b, s, o). -/
def gk (x : SX.Idx → EReal) (W : SW.Idx → EReal) (bias : Sb.Idx → EReal) (A : SA.Idx → EReal) (B : SB.Idx → EReal)
    (b : Fin 4) (s : Fin 2048) (o : Fin 4096) : EReal :=
  ((∑ k : Fin 2048, x (ix3 b s (lo k)) * weff W A B o (lo k))
      + ∑ k : Fin 2048, x (ix3 b s (hi k)) * weff W A B o (hi k))
    + bias (ix1 o)

/-- The reference's entry (b, s, o). -/
def gref (x : SX.Idx → EReal) (W : SW.Idx → EReal) (bias : Sb.Idx → EReal) (A : SA.Idx → EReal) (B : SB.Idx → EReal)
    (b : Fin 4) (s : Fin 2048) (o : Fin 4096) : EReal :=
  ((∑ d : Fin 4096, x (ix3 b s d) * W (ix2 o d)) + bias (ix1 o))
    + (∑ r : Fin 16, (∑ d : Fin 4096, x (ix3 b s d) * A (ix2 r d)) * B (ix2 o r)) * two

/-- The kernel's result array. -/
def Gk (x : SX.Idx → EReal) (W : SW.Idx → EReal) (bias : Sb.Idx → EReal) (A : SA.Idx → EReal) (B : SB.Idx → EReal) :
    SX.Idx → EReal := fun i => gk x W bias A B (i 0) (i 1) (i 2)

/-- The reference's result array. -/
def Gref (x : SX.Idx → EReal) (W : SW.Idx → EReal) (bias : Sb.Idx → EReal) (A : SA.Idx → EReal) (B : SB.Idx → EReal) :
    SX.Idx → EReal := fun i => gref x W bias A B (i 0) (i 1) (i 2)

/-- All entries of an array are real numbers. -/
def Fin_ {S : Shape} (v : S.Idx → EReal) : Prop := ∀ i, ∃ r : ℝ, v i = (r : EReal)

end Cert.Spec

end
-- ==== Proof.Spec2.lean ====
/-
  The intermediate arrays of the kernel's program, entry by entry over the extended reals: the fused weight as a
  whole [4096, 4096] array, and the second region's [8192, 4096] result as a function of ITS three operands
  (the flattened activations x2, any weight array we, the bias as a [1, 4096] row): the row x2(p, ·) against the
  row we(o, ·), the contracted axis cut in two halves summed one after the other, plus the bias entry.
-/
import proofs.«164427_j11673721110784_1_alg».proof.Proof.Spec

noncomputable section

namespace Cert.Spec

open Idealize.ShloMosaic Idealize.ShloMosaic.ValueIdx

abbrev SX2 : Shape := ⟨2, ![8192, 4096]⟩
abbrev Sb2 : Shape := ⟨2, ![1, 4096]⟩

/-- The fused weight array. -/
def Weff (W : SW.Idx → EReal) (A : SA.Idx → EReal) (B : SB.Idx → EReal) : SW.Idx → EReal :=
  fun i => weff W A B (i 0) (i 1)

/-- The second region's entry (p, o). -/
def out2 (x2 : SX2.Idx → EReal) (we : SW.Idx → EReal) (b2 : Sb2.Idx → EReal) (p : Fin 8192) (o : Fin 4096) : EReal :=
  ((∑ k : Fin 2048, x2 (ix2 p (lo k)) * we (ix2 o (lo k)))
      + ∑ k : Fin 2048, x2 (ix2 p (hi k)) * we (ix2 o (hi k)))
    + b2 (ix2 (0 : Fin 1) o)

/-- The second region's result array. -/
def Out2 (x2 : SX2.Idx → EReal) (we : SW.Idx → EReal) (b2 : Sb2.Idx → EReal) : SX2.Idx → EReal :=
  fun i => out2 x2 we b2 (i 0) (i 1)

end Cert.Spec

end
-- ==== Proof.KI.Value.lean ====
/-
  The kernel program's result at the ideal values, as one function of the argument arrays. The result buffer is the
  second region's [8192, 4096] array unflattened; that array is the blocked product of the flattened activations
  (the first host stretch's reshape, then a narrowing that is the identity on the extended reals) with the first
  region's array, the fused weight, plus the bias row (the bias reshaped to [1, 4096]); and the first region's array
  is the fused weight of the launch contents of W, A, B, which no earlier item writes.
  Row b·2048 + s of a [8192, 4096] array is row (b, s) of the [4, 2048, 4096] one: both sit at the same row-major
  position.
-/
import proofs.«164427_j11673721110784_1_alg».proof.Proof.KI.Args
import proofs.«164427_j11673721110784_1_alg».proof.Proof.Spec2
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable {F : FTy → Type} [FloatOps F]

local notation "𝕄" => MT nD τ sig Unit (Elt F) ℕ (UR sig nD τ) ℕ

/-! ## Three reshapes read at an index -/

/-- Row (b, s) of the flattened activations. -/
theorem flat_row (x : (⟨3, ![4, 2048, 4096]⟩ : Shape).Idx → EReal)
    (h : (⟨3, ![4, 2048, 4096]⟩ : Shape).ShapeCasts ⟨2, ![8192, 4096]⟩) (b : Fin 4) (s : Fin 2048) (d : Fin 4096) :
    shapeCast ⟨2, ![8192, 4096]⟩ x h (ix2 (⟨b.val * 2048 + s.val, by have := b.isLt; have := s.isLt; omega⟩ : Fin 8192) d) = x (ix3 b s d) :=
  shapeCast_apply x h _ _ (by
    rw [Shape.rowMajor_val_three, Shape.rowMajor_val_two]
    rfl)

/-- Entry (b, s, o) of the unflattened result. -/
theorem unflat_row (y : (⟨2, ![8192, 4096]⟩ : Shape).Idx → EReal)
    (h : (⟨2, ![8192, 4096]⟩ : Shape).ShapeCasts ⟨3, ![4, 2048, 4096]⟩) (b : Fin 4) (s : Fin 2048) (o : Fin 4096) :
    shapeCast ⟨3, ![4, 2048, 4096]⟩ y h (ix3 b s o) = y (ix2 (⟨b.val * 2048 + s.val, by have := b.isLt; have := s.isLt; omega⟩ : Fin 8192) o) :=
  shapeCast_apply y h _ _ (by
    rw [Shape.rowMajor_val_three, Shape.rowMajor_val_two]
    rfl)

/-- The bias as a row. -/
theorem bias_row (v : (⟨1, ![4096]⟩ : Shape).Idx → EReal)
    (h : (⟨1, ![4096]⟩ : Shape).ShapeCasts ⟨2, ![1, 4096]⟩) (o : Fin 4096) :
    shapeCast ⟨2, ![1, 4096]⟩ v h (ix2 (0 : Fin 1) o) = v (ix1 o) :=
  shapeCast_apply v h _ _ (by
    rw [Shape.rowMajor_val_two, Shape.rowMajor_val_one]
    show o.val = 0 * 4096 + o.val
    omega)

/-! ## The composition, over abstract arrays -/

open Cert.Spec in
/-- An array whose entry (b, s, o) is the second region's entry (b·2048 + s, o) over the flattened activations, the
    fused weight and the bias row is the kernel's result function. -/
theorem compose (x : SX.Idx → EReal) (W : SW.Idx → EReal) (bias : Sb.Idx → EReal) (A : SA.Idx → EReal) (B : SB.Idx → EReal)
    (x2 : SX2.Idx → EReal) (b2 : Sb2.Idx → EReal) (y : SX.Idx → EReal)
    (hx2 : ∀ (b : Fin 4) (s : Fin 2048) (d : Fin 4096),
      x2 (ix2 (⟨b.val * 2048 + s.val, by have := b.isLt; have := s.isLt; omega⟩ : Fin 8192) d) = x (ix3 b s d))
    (hb2 : ∀ o : Fin 4096, b2 (ix2 (0 : Fin 1) o) = bias (ix1 o))
    (hy : ∀ (b : Fin 4) (s : Fin 2048) (o : Fin 4096),
      y (ix3 b s o) = out2 x2 (Weff W A B) b2 (⟨b.val * 2048 + s.val, by have := b.isLt; have := s.isLt; omega⟩ : Fin 8192) o) :
    y = Gk x W bias A B := by
  funext i
  obtain ⟨b, s, o, rfl⟩ : ∃ (b : Fin 4) (s : Fin 2048) (o : Fin 4096), i = ix3 b s o := ⟨i 0, i 1, i 2, eq_ix3 i⟩
  rw [hy b s o]
  show out2 x2 (Weff W A B) b2 _ o = gk x W bias A B b s o
  unfold out2 gk
  simp only [hx2, hb2]
  rfl

/-! ## The program's buffers -/

variable (m : (ℓ : Loc nD τ sig) → Buf (Elt Ideal) ℓ)

/-- The flattened activations the first host stretch leaves (the narrowing after the reshape is the identity on the
    extended reals). -/
theorem W1_v1 (c : Dev nD) :
    (W1 m c (Proc.devRef .tc main_v1) : S8192x4096.Idx → EReal)
      = shapeCast S8192x4096 (m ((c : Thread nD τ).loc main_arg0) : S4x2048x4096.Idx → EReal) Facts₀.shapeCasts_S4x2048x4096_S8192x4096 := by
  show StableHlo.after hostOps0 (W0 m c) (Proc.devRef .tc main_v1) = _
  after_results
  rfl

/-- The bias row the first host stretch leaves. -/
theorem W1_v2 (c : Dev nD) :
    (W1 m c (Proc.devRef .tc main_v2) : S1x4096.Idx → EReal)
      = shapeCast S1x4096 (m ((c : Thread nD τ).loc main_arg2) : S4096.Idx → EReal) Facts₀.shapeCasts_S4096_S1x4096 := by
  show StableHlo.after hostOps0 (W0 m c) (Proc.devRef .tc main_v2) = _
  after_results
  rfl

/-- The result buffer is the second region's array unflattened. -/
theorem W4_v5_cast (c : Dev nD) :
    (W4 m c (Proc.devRef .tc main_v5) : S4x2048x4096.Idx → EReal)
      = shapeCast S4x2048x4096 (W3 m c (Proc.devRef .tc main_v4) : S8192x4096.Idx → EReal) Facts₀.shapeCasts_S8192x4096_S4x2048x4096 := by
  show StableHlo.after hostOps2 (W3 m c) (Proc.devRef .tc main_v5) = _
  after_results
  rfl

/-- THE VALUE: given the two regions' arrays as functions of their entry contents (`h0`, `h1`), the result buffer
    after the run is the kernel's result function of the launch contents of the five arguments. -/
theorem W4_v5
    (h0 : ∀ (V : (c : Dev nD) → (b : Ref sig .tc) → Buf (Elt Ideal) ((c : Thread nD τ).loc b)) (c : Dev nD),
      (dat0 (F := Ideal) V c).arrAt 3 cfg0.N = Cert.Spec.Weff (V c main_arg1) (V c main_arg3) (V c main_arg4))
    (h1 : ∀ (V : (c : Dev nD) → (b : Ref sig .tc) → Buf (Elt Ideal) ((c : Thread nD τ).loc b)) (c : Dev nD),
      (dat1 (F := Ideal) V c).arrAt 3 cfg1.N = Cert.Spec.Out2 (V c main_v1) (V c main_v3) (V c main_v2))
    (c : Dev nD) :
    (W4 m c (Proc.devRef .tc main_v5) : S4x2048x4096.Idx → EReal)
      = Cert.Spec.Gk (m ((c : Thread nD τ).loc main_arg0)) (m ((c : Thread nD τ).loc main_arg1)) (m ((c : Thread nD τ).loc main_arg2))
          (m ((c : Thread nD τ).loc main_arg3)) (m ((c : Thread nD τ).loc main_arg4)) := by
  have e4 : (W3 m c (Proc.devRef .tc main_v4) : S8192x4096.Idx → EReal)
      = Cert.Spec.Out2 (V2 m c main_v1) (V2 m c main_v3) (V2 m c main_v2) := (W3_arr m c 3).trans (h1 (V2 m) c)
  have e3 : (V2 m c main_v3 : S4096x4096.Idx → EReal)
      = Cert.Spec.Weff (m ((c : Thread nD τ).loc main_arg1)) (m ((c : Thread nD τ).loc main_arg3)) (m ((c : Thread nD τ).loc main_arg4)) := by
    refine ((W2_arr m c 3).trans (h0 (V1 m) c)).trans ?_
    show Cert.Spec.Weff (W1 m c (Proc.devRef .tc main_arg1)) (W1 m c (Proc.devRef .tc main_arg3)) (W1 m c (Proc.devRef .tc main_arg4)) = _
    rw [W1_of m c main_arg1 (by decide), W1_of m c main_arg3 (by decide), W1_of m c main_arg4 (by decide)]
  have e1 : (V2 m c main_v1 : S8192x4096.Idx → EReal) = W1 m c (Proc.devRef .tc main_v1) := W2_of_ne m c main_v1 (by decide)
  have e2 : (V2 m c main_v2 : S1x4096.Idx → EReal) = W1 m c (Proc.devRef .tc main_v2) := W2_of_ne m c main_v2 (by decide)
  rw [W4_v5_cast, e4, e3, e1, e2, W1_v1, W1_v2]
  exact compose _ _ _ _ _
    (shapeCast S8192x4096 (m ((c : Thread nD τ).loc main_arg0) : S4x2048x4096.Idx → EReal) Facts₀.shapeCasts_S4x2048x4096_S8192x4096)
    (shapeCast S1x4096 (m ((c : Thread nD τ).loc main_arg2) : S4096.Idx → EReal) Facts₀.shapeCasts_S4096_S1x4096) _
    (fun b s d => flat_row _ _ b s d) (fun o => bias_row _ _ o) (fun b s o => (unflat_row _ _ b s o).trans rfl)

end Cert.KernelIdeal.Hand

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KI.Val0.lean ====
/-
  The value of the first kernel region's output array at the ideal values. The region runs over a 4 × 4 grid; at the
  point with block coordinates (i₀, i₁) its body reads the [1024, 1024] block (i₀, i₁) of W, the [1024, 16] block
  (i₀, 0) of B and the [16, 1024] block (0, i₁) of A, and writes back the [1024, 1024] block (i₀, i₁) of its result:
  entry (p, q) of that block is W's entry plus 2 times the row p of the B block against the column q of the A block.
  An entry of a block is the entry of its array at block index × block size + the coordinate inside the block, so
  that block is block (i₀, i₁) of the fused weight W + 2·(B·A), and the 16 blocks tile the [4096, 4096] array: the
  array ends holding the fused weight.
-/
import proofs.«164427_j11673721110784_1_alg».proof.Proof.KI.Reg0
import proofs.«164427_j11673721110784_1_alg».proof.Proof.Spec2
import proofs.«164427_j11673721110784_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The body's arithmetic at the entry (p, q) of its block: the W block's entry plus 2 times the row p of the B block
    against the column q of the A block. -/
theorem pay_apply0 (b : Vec Ideal S1024x16 .f32) (a : Vec Ideal S16x1024 .f32) (w : Vec Ideal S1024x1024 .f32)
    (p q : Fin 1024) :
    k0_pay1 (F := Ideal) b a w (ix2 p q) = w (ix2 p q) + Cert.Spec.two * ∑ r : Fin 16, b (ix2 p r) * a (ix2 r q) := by
  unfold k0_pay1
  rw [truncf_apply, addf_apply, mulf_apply, broadcast_apply]
  rw [Cert.PlainDot.matmul_zero_apply (M := 1024) (K := 16) (N := 1024) dot_S1024x16_S16x1024_S1024x1024_1_0_0_1_n_n rfl]
  rfl

/-- The block index maps over the 4 × 4 grid: the W block moves with the output block on both axes, the B block with
    its row block only, the A block with its column block only; the output's block indices are below 4. -/
theorem idx_facts0 : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every one of the 4 × 4 output blocks is some point's. -/
theorem idx_onto0 : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- One entry of a block: if the W block's entry (p, q) is W at k, the B block's row p is B's row k₀ and the A block's
    column q is A's column k₁, the body's result at (p, q) is the fused weight at k. -/
theorem fused_block0 (W : S4096x4096.Idx → EReal) (A : S16x4096.Idx → EReal) (B : S4096x16.Idx → EReal)
    (wb : Vec Ideal S1024x1024 .f32) (bb : Vec Ideal S1024x16 .f32) (ab : Vec Ideal S16x1024 .f32)
    (p q : Fin 1024) (k : S4096x4096.Idx)
    (hw : wb (ix2 p q) = W (ix2 (k 0) (k 1)))
    (hb : ∀ r : Fin 16, bb (ix2 p r) = B (ix2 (k 0) r))
    (ha : ∀ r : Fin 16, ab (ix2 r q) = A (ix2 r (k 1))) :
    k0_pay1 (F := Ideal) bb ab wb (ix2 p q) = Cert.Spec.Weff W A B k := by
  rw [pay_apply0]
  show _ = W (ix2 (k 0) (k 1)) + Cert.Spec.two * ∑ r : Fin 16, B (ix2 (k 0) r) * A (ix2 r (k 1))
  rw [hw]
  refine congrArg (fun z => W (ix2 (k 0) (k 1)) + Cert.Spec.two * z) (Finset.sum_congr rfl fun r _ => ?_)
  rw [hb r, ha r]

/-- An entry of the [4096, 4096] array is in point t's block iff each coordinate is in the block's range on its axis. -/
theorem mem_blk0 (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- The 16 blocks tile the array: the entry (i₀, i₁) is in the block (i₀ / 1024, i₁ / 1024). -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

section
variable (V : (c : Dev nD) → (b : Ref sig .tc) → Buf (Elt Ideal) ((c : Thread nD τ).loc b))

/-- The W block at point t, at the entry y, is W at the entry k whose coordinates are block index × 1024 + y's. -/
theorem blkW_apply0 (c : Dev nD) (t : Fin cfg0.N) (y : S1024x1024.Idx) (k : S4096x4096.Idx)
    (hk0 : (k 0).val = win0_0.index t 0 * 1024 + (y 0).val) (hk1 : (k 1).val = win0_0.index t 1 * 1024 + (y 1).val) :
    (iblk0 (F := Ideal) V c 0 t : Vec Ideal S1024x1024 .f32) y = (V c main_arg1 : S4096x4096.Idx → EReal) k := by
  unfold iblk0
  rw [View.read_apply]
  show V c main_arg1 _ = V c main_arg1 _
  congr 1
  funext a
  apply Fin.ext
  match a with
  | ⟨0, _⟩ => show win0_0.index t 0 * 1024 + 1 * (y 0).val = (k 0).val; rw [hk0]; omega
  | ⟨1, _⟩ => show win0_0.index t 1 * 1024 + 1 * (y 1).val = (k 1).val; rw [hk1]; omega

/-- The B block at point t, at the entry y, is B at the entry k: rows block index × 1024 + y's, columns × 16 + y's. -/
theorem blkB_apply0 (c : Dev nD) (t : Fin cfg0.N) (y : S1024x16.Idx) (k : S4096x16.Idx)
    (hk0 : (k 0).val = win0_1.index t 0 * 1024 + (y 0).val) (hk1 : (k 1).val = win0_1.index t 1 * 16 + (y 1).val) :
    (iblk0 (F := Ideal) V c 1 t : Vec Ideal S1024x16 .f32) y = (V c main_arg4 : S4096x16.Idx → EReal) k := by
  unfold iblk0
  rw [View.read_apply]
  show V c main_arg4 _ = V c main_arg4 _
  congr 1
  funext a
  apply Fin.ext
  match a with
  | ⟨0, _⟩ => show win0_1.index t 0 * 1024 + 1 * (y 0).val = (k 0).val; rw [hk0]; omega
  | ⟨1, _⟩ => show win0_1.index t 1 * 16 + 1 * (y 1).val = (k 1).val; rw [hk1]; omega

/-- The A block at point t, at the entry y, is A at the entry k: rows block index × 16 + y's, columns × 1024 + y's. -/
theorem blkA_apply0 (c : Dev nD) (t : Fin cfg0.N) (y : S16x1024.Idx) (k : S16x4096.Idx)
    (hk0 : (k 0).val = win0_2.index t 0 * 16 + (y 0).val) (hk1 : (k 1).val = win0_2.index t 1 * 1024 + (y 1).val) :
    (iblk0 (F := Ideal) V c 2 t : Vec Ideal S16x1024 .f32) y = (V c main_arg3 : S16x4096.Idx → EReal) k := by
  unfold iblk0
  rw [View.read_apply]
  show V c main_arg3 _ = V c main_arg3 _
  congr 1
  funext a
  apply Fin.ext
  match a with
  | ⟨0, _⟩ => show win0_2.index t 0 * 16 + 1 * (y 0).val = (k 0).val; rw [hk0]; omega
  | ⟨1, _⟩ => show win0_2.index t 1 * 1024 + 1 * (y 1).val = (k 1).val; rw [hk1]; omega

/-- What point t writes back is block t of the fused weight of the arrays as the region finds them. -/
theorem flushed_eq0 (c : Dev nD) (t : Fin cfg0.N) :
    (dat0 (F := Ideal) V c).flushed 3 t
      = ((cfg0.win 3).blk t).view.read (Elt Ideal) (Cert.Spec.Weff (V c main_arg1) (V c main_arg3) (V c main_arg4)) := by
  show (cfg0.win 3).cut (grid0.coords t) ((dat0 (F := Ideal) V c).after 3 t) = _
  rw [after0_3]
  funext j
  obtain ⟨e0, e1, e2, e3, e4, e5, e6, e7⟩ := idx_facts0 t
  let p : Fin 1024 := ⟨(j (0 : Fin 2)).val, (j (0 : Fin 2)).isLt⟩
  let q : Fin 1024 := ⟨(j (1 : Fin 2)).val, (j (1 : Fin 2)).isLt⟩
  have hx : (cfg0.win 3).xinj (grid0.coords t) j = ix2 p q :=
    funext fun a => Fin.ext (by match a with | ⟨0, _⟩ => rfl | ⟨1, _⟩ => rfl)
  have he0 : ((((cfg0.win 3).blk t).view.emb j) (0 : Fin 2)).val = win0_3.index t (0 : Fin 2) * 1024 + 1 * p.val := rfl
  have he1 : ((((cfg0.win 3).blk t).view.emb j) (1 : Fin 2)).val = win0_3.index t (1 : Fin 2) * 1024 + 1 * q.val := rfl
  show k0_pay1 (F := Ideal) (iblk0 (F := Ideal) V c 1 t) (iblk0 (F := Ideal) V c 2 t) (iblk0 (F := Ideal) V c 0 t) ((cfg0.win 3).xinj (grid0.coords t) j) = _
  rw [hx, View.read_apply]
  exact fused_block0 (V c main_arg1) (V c main_arg3) (V c main_arg4)
    (iblk0 (F := Ideal) V c 0 t) (iblk0 (F := Ideal) V c 1 t) (iblk0 (F := Ideal) V c 2 t) p q (((cfg0.win 3).blk t).view.emb j)
    (blkW_apply0 V c t (ix2 p q) (ix2 ((((cfg0.win 3).blk t).view.emb j) (0 : Fin 2)) ((((cfg0.win 3).blk t).view.emb j) (1 : Fin 2)))
      (by show ((((cfg0.win 3).blk t).view.emb j) (0 : Fin 2)).val = win0_0.index t 0 * 1024 + p.val; rw [he0, e0]; omega)
      (by show ((((cfg0.win 3).blk t).view.emb j) (1 : Fin 2)).val = win0_0.index t 1 * 1024 + q.val; rw [he1, e1]; omega))
    (fun r => blkB_apply0 V c t (ix2 p r) (ix2 ((((cfg0.win 3).blk t).view.emb j) (0 : Fin 2)) r)
      (by show ((((cfg0.win 3).blk t).view.emb j) (0 : Fin 2)).val = win0_1.index t 0 * 1024 + p.val; rw [he0, e2]; omega)
      (by show r.val = win0_1.index t 1 * 16 + r.val; rw [e3]; omega))
    (fun r => blkA_apply0 V c t (ix2 r q) (ix2 r ((((cfg0.win 3).blk t).view.emb j) (1 : Fin 2)))
      (by show r.val = win0_2.index t 0 * 16 + r.val; rw [e4]; omega)
      (by show ((((cfg0.win 3).blk t).view.emb j) (1 : Fin 2)).val = win0_2.index t 1 * 1024 + q.val; rw [he1, e5]; omega))

/-- The first region's output array after the run is the fused weight W + 2·(B·A) of the arrays as the region finds
    them: every point writes back its block of it, and the blocks tile the array. -/
theorem arr0_eq (c : Dev nD) :
    (dat0 (F := Ideal) V c).arrAt 3 cfg0.N = Cert.Spec.Weff (V c main_arg1) (V c main_arg3) (V c main_arg4) :=
  (dat0 (F := Ideal) V c).arrAt_eq_of_cover 3 (Cert.Spec.Weff (V c main_arg1) (V c main_arg3) (V c main_arg4))
    (fun t _ => flushed_eq0 V c t) cover0

end

end Cert.KernelIdeal.Hand

end
-- ==== Proof.KI.Val1.lean ====
/-
  The value of the second kernel region's result array at the ideal values, for any entry contents V: every entry
  (p, o) of the [8192, 4096] result is the row p of the flattened activations against the row o of the weight
  array, the contracted axis cut in two halves of 2048 summed one after the other, plus the bias row's entry o.

  The body's arithmetic is read at an entry first: the zero fill is 0, an accumulation step adds to the accumulator's
  entry the sum over the block's 2048 columns of the products of the two rows, the last step adds the bias row's
  entry. Each window's block at a grid point is its array read at block index × block size + the local coordinate; the
  grid (4, 4, 2) is walked with the last coordinate fastest, so an odd point t and the point before it share the
  two leading coordinates (t / 8, (t / 2) % 4) and differ in the third (1 and 0): the accumulator after the odd
  point is the zero fill plus the first half's products plus the second half's, the bias row is added there, and
  the block is written back exactly at the odd points. Those sixteen blocks tile the result array.
-/
import proofs.«164427_j11673721110784_1_alg».proof.Proof.KI.Reg1
import proofs.«164427_j11673721110784_1_alg».proof.Proof.Spec2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an entry, over the extended reals -/

/-- The zero fill reads 0 everywhere. -/
theorem pay1_apply1 (p : Fin 2048) (q : Fin 1024) : k1_pay1 (F := Ideal) (ix2 p q) = 0 := by
  unfold k1_pay1
  rw [shapeCast_self]
  exact Ideal.ofBits_zero_f32

theorem lhs_dot1_0 (i : S2048x1024.Idx) (q : dot_S2048x2048_S1024x2048_S2048x1024_1_1_0_0_n_n.contr.Idx) :
    (dot_S2048x2048_S1024x2048_S2048x1024_1_1_0_0_n_n.lhsIdx i q 0).val = (i 0).val := by
  unfold DotDims.lhsIdx
  rw [dif_neg (show ¬(0 : Fin S2048x2048.rank) ∈ dot_S2048x2048_S1024x2048_S2048x1024_1_1_0_0_n_n.lhsBatch by decide), dif_pos (show (0 : Fin S2048x2048.rank) ∈ dot_S2048x2048_S1024x2048_S2048x1024_1_1_0_0_n_n.lhsNonContracting by decide)]
  rfl
theorem lhs_dot1_1 (i : S2048x1024.Idx) (q : dot_S2048x2048_S1024x2048_S2048x1024_1_1_0_0_n_n.contr.Idx) :
    (dot_S2048x2048_S1024x2048_S2048x1024_1_1_0_0_n_n.lhsIdx i q 1).val = (q ⟨0, by decide⟩).val :=
  dot_S2048x2048_S1024x2048_S2048x1024_1_1_0_0_n_n.lhsIdx_val_of_single rfl i q
theorem rhs_dot1_0 (i : S2048x1024.Idx) (q : dot_S2048x2048_S1024x2048_S2048x1024_1_1_0_0_n_n.contr.Idx) :
    (dot_S2048x2048_S1024x2048_S2048x1024_1_1_0_0_n_n.rhsIdx i q 0).val = (i 1).val := by
  unfold DotDims.rhsIdx
  rw [dif_neg (show ¬(0 : Fin S1024x2048.rank) ∈ dot_S2048x2048_S1024x2048_S2048x1024_1_1_0_0_n_n.rhsBatch by decide), dif_pos (show (0 : Fin S1024x2048.rank) ∈ dot_S2048x2048_S1024x2048_S2048x1024_1_1_0_0_n_n.rhsNonContracting by decide)]
  rfl
theorem rhs_dot1_1 (i : S2048x1024.Idx) (q : dot_S2048x2048_S1024x2048_S2048x1024_1_1_0_0_n_n.contr.Idx) :
    (dot_S2048x2048_S1024x2048_S2048x1024_1_1_0_0_n_n.rhsIdx i q 1).val = (q ⟨0, by decide⟩).val :=
  dot_S2048x2048_S1024x2048_S2048x1024_1_1_0_0_n_n.rhsIdx_val_of_single rfl i q

/-- The block product into a zero accumulator at (p, q): row p of the left block against row q of the right one. -/
theorem matmul1_apply (x : FVec Ideal S2048x2048 .bf16) (w : FVec Ideal S1024x2048 .bf16) (p : Fin 2048) (q : Fin 1024) :
    matmul dot_S2048x2048_S1024x2048_S2048x1024_1_1_0_0_n_n none x w (constant S2048x1024 .f32 0x00000000#32) (ix2 p q)
      = ∑ k : Fin 2048, x (ix2 p k) * w (ix2 q k) := by
  simp only [matmul]
  rw [Ideal.matmul_constant_zero_apply, ← Equiv.sum_comp (ValueIdx.contrEquiv1 dot_S2048x2048_S1024x2048_S2048x1024_1_1_0_0_n_n 2048 rfl rfl).symm]
  refine Finset.sum_congr rfl fun k _ => ?_
  have hk := ValueIdx.contrEquiv1_symm_val dot_S2048x2048_S1024x2048_S2048x1024_1_1_0_0_n_n 2048 rfl rfl k
  have el : dot_S2048x2048_S1024x2048_S2048x1024_1_1_0_0_n_n.lhsIdx (ix2 p q) ((ValueIdx.contrEquiv1 dot_S2048x2048_S1024x2048_S2048x1024_1_1_0_0_n_n 2048 rfl rfl).symm k) = ix2 p k := funext fun a => Fin.ext (by
    match a with
    | ⟨0, _⟩ => exact lhs_dot1_0 _ _
    | ⟨1, _⟩ => exact (lhs_dot1_1 _ _).trans hk)
  have er : dot_S2048x2048_S1024x2048_S2048x1024_1_1_0_0_n_n.rhsIdx (ix2 p q) ((ValueIdx.contrEquiv1 dot_S2048x2048_S1024x2048_S2048x1024_1_1_0_0_n_n 2048 rfl rfl).symm k) = ix2 q k := funext fun a => Fin.ext (by
    match a with
    | ⟨0, _⟩ => exact rhs_dot1_0 _ _
    | ⟨1, _⟩ => exact (rhs_dot1_1 _ _).trans hk)
  rw [el, er]

/-- One accumulation step at (p, q): what the accumulator held plus the block product there. -/
theorem pay2_apply1 (s : Vec Ideal S2048x1024 .f32) (x : Vec Ideal S2048x2048 .bf16) (w : Vec Ideal S1024x2048 .bf16)
    (p : Fin 2048) (q : Fin 1024) :
    k1_pay2 s x w (ix2 p q) = s (ix2 p q) + ∑ k : Fin 2048, x (ix2 p k) * w (ix2 q k) := by
  unfold k1_pay2
  rw [shapeCast_self, shapeCast_self, shapeCast_self, addf_apply]
  exact congrArg (s (ix2 p q) + ·) (matmul1_apply x w p q)

/-- The bias step at (p, q): the accumulator there plus the bias row at q. -/
theorem pay3_apply1 (s : Vec Ideal S2048x1024 .f32) (b : Vec Ideal S1x1024 .f32) (p : Fin 2048) (q : Fin 1024) :
    k1_pay3 s b (ix2 p q) = s (ix2 p q) + b (ix2 (0 : Fin 1) q) := by
  unfold k1_pay3
  rw [shapeCast_self, addf_apply]
  exact congrArg (s (ix2 p q) + ·) (broadcastTo_1b_ab_apply b Gen.broadcasts_S1x1024_S2048x1024 p q)

/-! ## The blocks and the arrays at their literal types -/

section
variable (V : (c : Dev nD) → (b : Ref sig .tc) → Buf (Elt Ideal) ((c : Thread nD τ).loc b))

/-- The activations' block at a point. -/
abbrev xblk1 (c : Dev nD) (t : Fin cfg1.N) : Vec Ideal S2048x2048 .bf16 := iblk1 V c 0 t
/-- The weight's block at a point. -/
abbrev wblk1 (c : Dev nD) (t : Fin cfg1.N) : Vec Ideal S1024x2048 .bf16 := iblk1 V c 1 t
/-- The bias row's block at a point. -/
abbrev bblk1 (c : Dev nD) (t : Fin cfg1.N) : Vec Ideal S1x1024 .f32 := iblk1 V c 2 t
/-- The flattened activations. -/
abbrev xarr1 (c : Dev nD) : S8192x4096.Idx → EReal := V c main_v1
/-- The weight array. -/
abbrev warr1 (c : Dev nD) : S4096x4096.Idx → EReal := V c main_v3
/-- The bias row. -/
abbrev barr1 (c : Dev nD) : S1x4096.Idx → EReal := V c main_v2

/-- The windows' block indices over the grid (4, 4, 2): point t has coordinates (t / 8, (t / 2) % 4, t % 2); the
    activations' block sits at (i0, i2), the weight's at (i1, i2), the bias row's at (0, i1), the result's at (i0, i1). -/
theorem idx_facts1 : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = 0 ∧ win1_2.index t (1 : Fin 2) = t.val / 2 % 4
    ∧ win1_3.index t (0 : Fin 2) = t.val / 8 ∧ win1_3.index t (1 : Fin 2) = t.val / 2 % 4 :=
  (by decide +kernel : ∀ t : Fin grid1.N, _)

/-- An entry of the activations' block is the array's entry at block index × block size + the local coordinate. -/
theorem xblk1_apply (c : Dev nD) (t : Fin cfg1.N) (a : Fin 2048) (k : Fin 2048) (P : Fin 8192) (K : Fin 4096)
    (hP : P.val = t.val / 8 * 2048 + a.val) (hK : K.val = t.val % 2 * 2048 + k.val) :
    xblk1 V c t (ix2 a k) = xarr1 V c (ix2 P K) := by
  obtain ⟨e0, e1, -⟩ := idx_facts1 t
  unfold xblk1 iblk1
  rw [View.read_apply]
  show V c main_v1 _ = V c main_v1 _
  congr 1
  funext ax
  apply Fin.ext
  match ax with
  | ⟨0, _⟩ => show win1_0.index t (0 : Fin 2) * 2048 + 1 * a.val = P.val; omega
  | ⟨1, _⟩ => show win1_0.index t (1 : Fin 2) * 2048 + 1 * k.val = K.val; omega

/-- The same for the weight's block. -/
theorem wblk1_apply (c : Dev nD) (t : Fin cfg1.N) (b : Fin 1024) (k : Fin 2048) (O : Fin 4096) (K : Fin 4096)
    (hO : O.val = t.val / 2 % 4 * 1024 + b.val) (hK : K.val = t.val % 2 * 2048 + k.val) :
    wblk1 V c t (ix2 b k) = warr1 V c (ix2 O K) := by
  obtain ⟨-, -, e0, e1, -⟩ := idx_facts1 t
  unfold wblk1 iblk1
  rw [View.read_apply]
  show V c main_v3 _ = V c main_v3 _
  congr 1
  funext ax
  apply Fin.ext
  match ax with
  | ⟨0, _⟩ => show win1_1.index t (0 : Fin 2) * 1024 + 1 * b.val = O.val; omega
  | ⟨1, _⟩ => show win1_1.index t (1 : Fin 2) * 2048 + 1 * k.val = K.val; omega

/-- The same for the bias row's block. -/
theorem bblk1_apply (c : Dev nD) (t : Fin cfg1.N) (b : Fin 1024) (O : Fin 4096)
    (hO : O.val = t.val / 2 % 4 * 1024 + b.val) :
    bblk1 V c t (ix2 (0 : Fin 1) b) = barr1 V c (ix2 (0 : Fin 1) O) := by
  obtain ⟨-, -, -, -, e0, e1, -⟩ := idx_facts1 t
  unfold bblk1 iblk1
  rw [View.read_apply]
  show V c main_v2 _ = V c main_v2 _
  congr 1
  funext ax
  apply Fin.ext
  match ax with
  | ⟨0, _⟩ => show win1_2.index t (0 : Fin 2) * 1 + 1 * 0 = 0; omega
  | ⟨1, _⟩ => show win1_2.index t (1 : Fin 2) * 1024 + 1 * b.val = O.val; omega

/-! ## The accumulator at an odd point, the block written back there, and the array -/

/-- The accumulator after an odd point at the local entry (a, b): the first half's products (the zero fill added to
    nothing) then the second half's, the rows being row P of the activations and row O of the weight. The point
    before has the same two leading coordinates and the third 0, so its blocks' columns are the first half's. -/
theorem acc1_odd_apply (c : Dev nD) (t : Fin cfg1.N) (ht : t.val % 2 = 1) (a : Fin 2048) (b : Fin 1024)
    (P : Fin 8192) (O : Fin 4096) (hP : P.val = t.val / 8 * 2048 + a.val) (hO : O.val = t.val / 2 % 4 * 1024 + b.val) :
    acc1 V c t.val t.isLt (ix2 a b)
      = (∑ k : Fin 2048, xarr1 V c (ix2 P (Cert.Spec.lo k)) * warr1 V c (ix2 O (Cert.Spec.lo k)))
        + ∑ k : Fin 2048, xarr1 V c (ix2 P (Cert.Spec.hi k)) * warr1 V c (ix2 O (Cert.Spec.hi k)) := by
  have hlt : t.val - 1 < cfg1.N := Nat.lt_of_le_of_lt (Nat.sub_le _ _) t.isLt
  have hev : (⟨t.val - 1, hlt⟩ : Fin cfg1.N).val % 2 = 0 := by show (t.val - 1) % 2 = 0; omega
  have h0 : acc1 V c (t.val - 1) hlt (ix2 a b)
      = ∑ k : Fin 2048, xarr1 V c (ix2 P (Cert.Spec.lo k)) * warr1 V c (ix2 O (Cert.Spec.lo k)) := by
    refine (congrFun (acc1_even V c ⟨t.val - 1, hlt⟩ hev) (ix2 a b)).trans ?_
    refine (pay2_apply1 (k1_pay1 (F := Ideal)) (xblk1 V c ⟨t.val - 1, hlt⟩) (wblk1 V c ⟨t.val - 1, hlt⟩) a b).trans ?_
    rw [pay1_apply1, zero_add]
    refine Finset.sum_congr rfl fun k _ => ?_
    have hl : (Cert.Spec.lo k).val = k.val := rfl
    rw [xblk1_apply V c ⟨t.val - 1, hlt⟩ a k P (Cert.Spec.lo k) (by show P.val = (t.val - 1) / 8 * 2048 + a.val; omega)
          (by show (Cert.Spec.lo k).val = (t.val - 1) % 2 * 2048 + k.val; omega),
      wblk1_apply V c ⟨t.val - 1, hlt⟩ b k O (Cert.Spec.lo k) (by show O.val = (t.val - 1) / 2 % 4 * 1024 + b.val; omega)
          (by show (Cert.Spec.lo k).val = (t.val - 1) % 2 * 2048 + k.val; omega)]
  rw [acc1_odd V c t ht]
  refine (pay2_apply1 (acc1 V c (t.val - 1) hlt) (xblk1 V c t) (wblk1 V c t) a b).trans ?_
  rw [h0]
  refine congrArg (_ + ·) (Finset.sum_congr rfl fun k _ => ?_)
  have hh : (Cert.Spec.hi k).val = 2048 + k.val := rfl
  rw [xblk1_apply V c t a k P (Cert.Spec.hi k) hP (by omega), wblk1_apply V c t b k O (Cert.Spec.hi k) hO (by omega)]

/-- What an odd point leaves in the result's block at (a, b): the entry (P, O) of the specification. -/
theorem after1_odd_apply (c : Dev nD) (t : Fin cfg1.N) (ht : t.val % 2 = 1) (y : S2048x1024.Idx)
    (P : Fin 8192) (O : Fin 4096) (hP : P.val = t.val / 8 * 2048 + (y 0).val) (hO : O.val = t.val / 2 % 4 * 1024 + (y 1).val) :
    k1_pay3 (acc1 V c t.val t.isLt) (bblk1 V c t) y = Cert.Spec.out2 (xarr1 V c) (warr1 V c) (barr1 V c) P O := by
  obtain ⟨a, b, rfl⟩ : ∃ (a : Fin 2048) (b : Fin 1024), y = ix2 a b := ⟨y 0, y 1, eq_ix2 y⟩
  have hP' : P.val = t.val / 8 * 2048 + a.val := hP
  have hO' : O.val = t.val / 2 % 4 * 1024 + b.val := hO
  refine (pay3_apply1 (acc1 V c t.val t.isLt) (bblk1 V c t) a b).trans ?_
  rw [acc1_odd_apply V c t ht a b P O hP' hO', bblk1_apply V c t b O hO']
  rfl

/-- The block a writing point (an odd one) writes back is its block of the specification's array. -/
theorem flushed_eq1 (c : Dev nD) (t : Fin cfg1.N) (hf : (cfg1.win 3).flush t = true) :
    (dat1 (F := Ideal) V c).flushed 3 t
      = ((cfg1.win 3).blk t).view.read (Elt Ideal) (Cert.Spec.Out2 (V c main_v1) (V c main_v3) (V c main_v2)) := by
  have ht : t.val % 2 = 1 := (flush1_3 t).mp hf
  obtain ⟨-, -, -, -, -, -, e0, e1⟩ := idx_facts1 t
  show (cfg1.win 3).cut (grid1.coords t) ((dat1 (F := Ideal) V c).after 3 t) = _
  rw [after1_3]
  funext y
  rw [View.read_apply]
  show k1_pay3 (acc1 V c t.val t.isLt) (bblk1 V c t) y
    = Cert.Spec.out2 (xarr1 V c) (warr1 V c) (barr1 V c) ((((cfg1.win 3).blk t).view.emb y) 0) ((((cfg1.win 3).blk t).view.emb y) 1)
  refine after1_odd_apply V c t ht y _ _ ?_ ?_
  · show win1_3.index t (0 : Fin 2) * 2048 + 1 * (y 0).val = t.val / 8 * 2048 + (y 0).val; omega
  · show win1_3.index t (1 : Fin 2) * 1024 + 1 * (y 1).val = t.val / 2 % 4 * 1024 + (y 1).val; omega

/-- An index of the result array is in point t's block iff each coordinate is in the block's range on its axis. -/
theorem mem_blk1 (t : Fin cfg1.N) (i : S8192x4096.Idx) :
    i ∈ ((cfg1.win 3).blk t).view.set
      ↔ ∀ a : Fin 2, win1_3.index t a * S2048x1024.size a ≤ (i a).val ∧ (i a).val < win1_3.index t a * S2048x1024.size a + S2048x1024.size a := by
  show i ∈ ((View.whole main_v4).slice (win1_3.rect t)).set ↔ _
  rw [View.set_slice_whole, Rect.mem_set_unit]
  exact Iff.rfl

/-- Every entry (p, o) of the result lies in the block of the odd point with leading coordinates p / 2048, o / 1024. -/
theorem cover1 (i : S8192x4096.Idx) :
    ∃ t : Fin cfg1.N, (cfg1.win 3).flush t = true ∧ i ∈ ((cfg1.win 3).blk t).view.set := by
  have hN : cfg1.N = 32 := N_1
  have hi0 : (i 0).val < 8192 := (i 0).isLt
  have hi1 : (i 1).val < 4096 := (i 1).isLt
  let t : Fin cfg1.N := ⟨8 * ((i 0).val / 2048) + 2 * ((i 1).val / 1024) + 1, by rw [hN]; omega⟩
  have htv : t.val = 8 * ((i 0).val / 2048) + 2 * ((i 1).val / 1024) + 1 := rfl
  obtain ⟨-, -, -, -, -, -, e0, e1⟩ := idx_facts1 t
  refine ⟨t, (flush1_3 t).mpr (by omega), ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-- The result array after the region: the specification's array of the three operands as the region finds them. -/
theorem arr1_eq (c : Dev nD) :
    (dat1 (F := Ideal) V c).arrAt 3 cfg1.N = Cert.Spec.Out2 (V c main_v1) (V c main_v3) (V c main_v2) :=
  (dat1 (F := Ideal) V c).arrAt_eq_of_cover 3 (Cert.Spec.Out2 (V c main_v1) (V c main_v3) (V c main_v2))
    (fun t hf => flushed_eq1 V c t hf) cover1

end

end Cert.KernelIdeal.Hand

end
-- ==== Proof.Ref.lean ====
/-
  The reference program's result, entry by entry, is the reference function of the specification:
  at (b, s, o) it is (Σ_d x(b,s,d)·W(o,d) + bias(o)) + (Σ_r (Σ_d x(b,s,d)·A(r,d)) · B(o,r)) · 2.
-/
import proofs.«164427_j11673721110784_1_alg».proof.Proof.Gen.ReferenceIdeal.Read
import proofs.«164427_j11673721110784_1_alg».proof.Proof.Spec

noncomputable section

namespace Cert.ReferenceIdeal.RefValue

open Cert.ReferenceIdeal Cert.ReferenceIdeal.Read Idealize.ShloMosaic Idealize.ShloMosaic.ValueIdx

/-- The first product reads x at (b, s, k). -/
theorem lidx0 (b : Fin 4) (s : Fin 2048) (o : Fin 4096) (k : Fin 4096) :
    lidx_main_v0 (ix3 b s o) k = ix3 b s k :=
  funext fun a => Fin.ext (by match a with | ⟨0, _⟩ => rfl | ⟨1, _⟩ => rfl | ⟨2, _⟩ => rfl)

/-- The first product reads W at (o, k). -/
theorem ridx0 (b : Fin 4) (s : Fin 2048) (o : Fin 4096) (k : Fin 4096) :
    ridx_main_v0 (ix3 b s o) k = ix2 o k :=
  funext fun a => Fin.ext (by match a with | ⟨0, _⟩ => rfl | ⟨1, _⟩ => rfl)

/-- The two broadcasts read bias at o. -/
theorem idx12 (b : Fin 4) (s : Fin 2048) (o : Fin 4096) :
    idx_main_v1 (idx_main_v2 (ix3 b s o)) = ix1 o :=
  funext fun a => Fin.ext (by match a with | ⟨0, _⟩ => rfl)

/-- The inner product of the low-rank branch reads x at (b, s, k). -/
theorem lidx45 (b : Fin 4) (s : Fin 2048) (o : Fin 4096) (r : Fin 16) (k : Fin 4096) :
    lidx_main_v4 (lidx_main_v5 (ix3 b s o) r) k = ix3 b s k :=
  funext fun a => Fin.ext (by match a with | ⟨0, _⟩ => rfl | ⟨1, _⟩ => rfl | ⟨2, _⟩ => rfl)

/-- The inner product of the low-rank branch reads A at (r, k). -/
theorem ridx45 (b : Fin 4) (s : Fin 2048) (o : Fin 4096) (r : Fin 16) (k : Fin 4096) :
    ridx_main_v4 (lidx_main_v5 (ix3 b s o) r) k = ix2 r k :=
  funext fun a => Fin.ext (by match a with | ⟨0, _⟩ => rfl | ⟨1, _⟩ => rfl)

/-- The outer product of the low-rank branch reads B at (o, r). -/
theorem ridx5 (b : Fin 4) (s : Fin 2048) (o : Fin 4096) (r : Fin 16) :
    ridx_main_v5 (ix3 b s o) r = ix2 o r :=
  funext fun a => Fin.ext (by match a with | ⟨0, _⟩ => rfl | ⟨1, _⟩ => rfl)

/-- The reference array of the specification at (b, s, o) is its entry function there. -/
theorem Gref_ix3 (x : Cert.Spec.SX.Idx → EReal) (W : Cert.Spec.SW.Idx → EReal) (bias : Cert.Spec.Sb.Idx → EReal)
    (A : Cert.Spec.SA.Idx → EReal) (B : Cert.Spec.SB.Idx → EReal) (b : Fin 4) (s : Fin 2048) (o : Fin 4096) :
    Cert.Spec.Gref x W bias A B (ix3 b s o) = Cert.Spec.gref x W bias A B b s o := rfl

/-- The reference program's result is the reference array of the specification. -/
theorem ref_eq (x0 : (⟨S4x2048x4096, .f32⟩ : BufTy).Contents (Elt Ideal)) (x1 : (⟨S4096x4096, .f32⟩ : BufTy).Contents (Elt Ideal)) (x2 : (⟨S4096, .f32⟩ : BufTy).Contents (Elt Ideal)) (x3 : (⟨S16x4096, .f32⟩ : BufTy).Contents (Elt Ideal)) (x4 : (⟨S4096x16, .f32⟩ : BufTy).Contents (Elt Ideal)) :
    val_main_v8 (F := Ideal) x0 x1 x2 x3 x4 = Cert.Spec.Gref x0 x1 x2 x3 x4 := by
  funext i
  obtain ⟨b, s, o, rfl⟩ : ∃ (b : Fin 4) (s : Fin 2048) (o : Fin 4096), i = ix3 b s o :=
    ⟨i 0, i 1, i 2, eq_ix3 i⟩
  rw [val_main_v8_apply, val_main_v3_apply, val_main_v7_apply, val_main_v0_apply, val_main_v2_apply,
    val_main_v1_apply, val_main_v5_apply, val_main_v6_apply, val_main_cst_apply]
  simp only [val_main_v4_apply, lidx0, ridx0, idx12, lidx45, ridx45, ridx5, Ideal.addf_def, Ideal.mulf_def,
    Ideal.ofBits_def]
  rw [Gref_ix3]
  rfl

end Cert.ReferenceIdeal.RefValue

end
-- ==== Proof.Algebra.lean ====
/-
  The law joining the two sides of the certificate, entry by entry.

  With every argument entry a real number and the scaling word a real number t, the kernel's entry
      Σ_{k<2048} x(lo k)·(W(lo k) + t·Σ_r B_r·A_r(lo k)) + Σ_{k<2048} x(hi k)·(W(hi k) + t·Σ_r B_r·A_r(hi k)) + bias
  and the reference's entry
      (Σ_{d<4096} x_d·W_d + bias) + (Σ_r (Σ_d x_d·A_r(d))·B_r)·t
  are the same real number: the two halves of the contracted axis join into one sum over 4096 positions,
  the product distributes over the rank-16 update, and the two finite sums commute.

  Three parts: the identity over the reals, for abstract rows; the coercion of a finite real sum into the
  extended reals; and the transfer of the extended-real statement to the real one.
-/
import proofs.«164427_j11673721110784_1_alg».proof.Proof.Spec
import proofs.«164427_j11673721110784_1_alg».proof.Proof.LibPlainDot
import Mathlib.Algebra.BigOperators.Fin
import Mathlib.Algebra.BigOperators.Ring.Finset
import Mathlib.Data.EReal.Operations
import Mathlib.Tactic.Ring

noncomputable section

namespace Cert.Spec

open Idealize.ShloMosaic Idealize.ShloMosaic.ValueIdx

/-! ## The contracted axis in two halves -/

/-- A sum over the 4096 positions is the sum over the first half plus the sum over the second half. -/
theorem sum_halves {β : Type*} [AddCommMonoid β] (F : Fin 4096 → β) :
    ∑ d : Fin 4096, F d = ∑ k : Fin 2048, F (lo k) + ∑ k : Fin 2048, F (hi k) :=
  Cert.PlainDot.sum_two_blocks (a := 2048) (b := 2048) (by norm_num) F (fun k => F (lo k)) (fun k => F (hi k))
    (fun _ => rfl) (fun _ => rfl)

/-! ## The identity over the reals -/

/-- One row against the fused weight: the product distributes over the rank-16 update, and the sum over the
    contracted axis and the sum over the rank commute. -/
theorem real_fused (x w : Fin 4096 → ℝ) (a : Fin 16 → Fin 4096 → ℝ) (bb : Fin 16 → ℝ) (t : ℝ) :
    ∑ d : Fin 4096, x d * (w d + t * ∑ r : Fin 16, bb r * a r d)
      = (∑ d : Fin 4096, x d * w d) + (∑ r : Fin 16, (∑ d : Fin 4096, x d * a r d) * bb r) * t := by
  have h1 : ∀ d : Fin 4096, x d * (w d + t * ∑ r : Fin 16, bb r * a r d)
      = x d * w d + t * ∑ r : Fin 16, x d * a r d * bb r := by
    intro d
    have h : ∑ r : Fin 16, x d * a r d * bb r = x d * ∑ r : Fin 16, bb r * a r d := by
      rw [Finset.mul_sum]
      exact Finset.sum_congr rfl fun r _ => by ring
    rw [h]; ring
  have h2 : ∑ d : Fin 4096, ∑ r : Fin 16, x d * a r d * bb r
      = ∑ r : Fin 16, (∑ d : Fin 4096, x d * a r d) * bb r := by
    rw [Finset.sum_comm]
    exact Finset.sum_congr rfl fun r _ => (Finset.sum_mul _ _ _).symm
  rw [Finset.sum_congr rfl fun d _ => h1 d, Finset.sum_add_distrib, ← Finset.mul_sum, h2]
  ring

/-- The kernel's real entry equals the reference's real entry. -/
theorem real_law (x w : Fin 4096 → ℝ) (a : Fin 16 → Fin 4096 → ℝ) (bb : Fin 16 → ℝ) (c t : ℝ) :
    ((∑ k : Fin 2048, x (lo k) * (w (lo k) + t * ∑ r : Fin 16, bb r * a r (lo k)))
        + ∑ k : Fin 2048, x (hi k) * (w (hi k) + t * ∑ r : Fin 16, bb r * a r (hi k))) + c
      = ((∑ d : Fin 4096, x d * w d) + c)
        + (∑ r : Fin 16, (∑ d : Fin 4096, x d * a r d) * bb r) * t := by
  have hs := sum_halves (fun d => x d * (w d + t * ∑ r : Fin 16, bb r * a r d))
  have hf := real_fused x w a bb t
  rw [hs] at hf
  rw [hf]
  ring

/-! ## Finite real sums in the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-! ## The scaling word is a real number -/

/-- The word's exponent field is not all ones, so it denotes a real number (a normal one: sign times
    significand times a power of two). -/
theorem two_real : ∃ t : ℝ, two = (t : EReal) := by
  unfold two
  simp [Ideal.ofBits, Ideal.ieee]
  exact ⟨8388608 * (2 ^ 22)⁻¹, by norm_cast⟩

/-! ## The transfer -/

/-- Entry by entry, under real arguments, the kernel's function is the reference's. -/
theorem gk_eq_gref (x : SX.Idx → EReal) (W : SW.Idx → EReal) (bias : Sb.Idx → EReal) (A : SA.Idx → EReal) (B : SB.Idx → EReal)
    (hx : Fin_ x) (hW : Fin_ W) (hb : Fin_ bias) (hA : Fin_ A) (hB : Fin_ B) (b : Fin 4) (s : Fin 2048) (o : Fin 4096) :
    gk x W bias A B b s o = gref x W bias A B b s o := by
  choose xr hxr using hx
  choose wr hwr using hW
  choose br hbr using hb
  choose ar har using hA
  choose Br hBr using hB
  obtain ⟨t, ht⟩ := two_real
  unfold gk gref weff
  simp only [hxr, hwr, hbr, har, hBr, ht]
  simp only [← EReal.coe_mul, ← EReal.coe_add, ← coe_sum]
  exact congrArg _ (real_law (fun d => xr (ix3 b s d)) (fun d => wr (ix2 o d)) (fun r d => ar (ix2 r d))
    (fun r => Br (ix2 o r)) (br (ix1 o)) t)

theorem Gk_eq_Gref (x : SX.Idx → EReal) (W : SW.Idx → EReal) (bias : Sb.Idx → EReal) (A : SA.Idx → EReal) (B : SB.Idx → EReal)
    (hx : Fin_ x) (hW : Fin_ W) (hb : Fin_ bias) (hA : Fin_ A) (hB : Fin_ B) : Gk x W bias A B = Gref x W bias A B := by
  funext i
  exact gk_eq_gref x W bias A B hx hW hb hA hB (i 0) (i 1) (i 2)

end Cert.Spec

end
-- ==== Proof.Finite.lean ====
/-
  From the printed precondition to "every argument entry is a real number".

  The precondition is the conjunction, over the five argument arrays, of "every entry's absolute value is below
  the word 0x7F800000", each conjunct a reduction by `and` over all axes of the entrywise comparison. The word
  denotes +∞ in the extended reals; an extended real whose absolute value max(v, -v) is below +∞ is neither
  +∞ nor -∞, so it is a real number.
-/
import proofs.«164427_j11673721110784_1_alg».proof.Proof.Spec
import proofs.«164427_j11673721110784_1_alg».proof.Pre_finite_inputs
import Idealize.ShloMosaic.Lib.ReduceAll
import Mathlib.Data.EReal.Basic

noncomputable section

namespace Cert.Spec

open Idealize.ShloMosaic Idealize.ShloMosaic.ValueIdx

/-- The rank-0 shape has one index. -/
instance : Subsingleton Cert.Pre_finite_inputs.S_.Idx := ⟨fun a b => funext fun d => d.elim0⟩

/-- A truth value's one-bit word is 1 exactly when the truth value is true. -/
theorem ofBool_eq_one {b : Bool} : BitVec.ofBool b = 1#1 ↔ b = true := by cases b <;> decide

/-- The word the precondition compares against denotes +∞. -/
theorem inf_word : Ideal.ofBits .f32 0x7F800000#32 = (⊤ : EReal) := by simp [Ideal.ofBits, Ideal.ieee]

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- One conjunct read back: the reduction by `and` of the entrywise test being 1 makes every entry real. -/
theorem fin_of_all {S : Shape} {axes : List (Fin S.rank)} (v : S.Idx → EReal)
    (bc : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (h : Host.reduce IntOp.andi
        (cmpf (F := Ideal) (φ := .f32) .olt (Host.absf (F := Ideal) (φ := .f32) v)
          (broadcastInDim S ![] bc (constant (F := Ideal) Cert.Pre_finite_inputs.S_ .f32 0x7F800000#32)))
        init hr hu ix0 = 1#1) : Fin_ v := by
  intro i
  have e := Host.reduce_andi_all _ init hr hu ix0 h i
  have e' : Ideal.cmp .olt (max (v i) (-(v i))) (Ideal.ofBits .f32 0x7F800000#32) = 1#1 := e
  rw [inf_word] at e'
  apply real_of_abs_lt_top
  unfold Ideal.cmp at e'
  exact of_decide_eq_true (ofBool_eq_one.1 e')

/-- The printed precondition being 1 makes every entry of every argument a real number. -/
theorem finite_of_pre [Cert.Pre_finite_inputs.Facts] (x : SX.Idx → EReal) (W : SW.Idx → EReal) (bias : Sb.Idx → EReal) (A : SA.Idx → EReal) (B : SB.Idx → EReal)
    (h : Cert.Pre_finite_inputs.fn (F := Ideal) x W bias A B = (fun _ => 1#1)) :
    Fin_ x ∧ Fin_ W ∧ Fin_ bias ∧ Fin_ A ∧ Fin_ B := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨fin_of_all x _ _ _ _ h1, fin_of_all W _ _ _ _ h2, fin_of_all bias _ _ _ _ h3, fin_of_all A _ _ _ _ h4,
    fin_of_all B _ _ _ _ h5⟩

end Cert.Spec

end
-- ==== Proof.lean ====
/-
  The certificate's claim. Both kernel programs (the word-level one and its reading at the ideal values) run
  to the end from any memory with zero counters and leave the five argument arrays as launched; the reference's
  run is its host operations composed. At the ideal values the kernel's result is
  x · (W + 2·(B·A))ᵀ + bias, the contracted axis summed in two halves, and the reference's is
  (x · Wᵀ + bias) + ((x · Aᵀ) · Bᵀ) · 2; with every input entry a real number the two agree by distributivity
  and the exchange of the two finite sums. The idealization rewrote no operation, so nothing is owed for it.
-/
import proofs.«164427_j11673721110784_1_alg».proof.Defs
import proofs.«164427_j11673721110784_1_alg».proof.Proof.Gen.Kernel
import proofs.«164427_j11673721110784_1_alg».proof.Proof.Gen.KernelIdeal
import proofs.«164427_j11673721110784_1_alg».proof.Proof.Gen.ReferenceIdeal
import proofs.«164427_j11673721110784_1_alg».proof.Proof.Gen.Pre_finite_inputs
import proofs.«164427_j11673721110784_1_alg».proof.Proof.Gen.ReferenceIdeal.Run
import proofs.«164427_j11673721110784_1_alg».proof.Proof.Gen.ReferenceIdeal.Read
import proofs.«164427_j11673721110784_1_alg».proof.Proof.K.Args
import proofs.«164427_j11673721110784_1_alg».proof.Proof.KI.Args
import proofs.«164427_j11673721110784_1_alg».proof.Proof.KI.Value
import proofs.«164427_j11673721110784_1_alg».proof.Proof.KI.Val0
import proofs.«164427_j11673721110784_1_alg».proof.Proof.KI.Val1
import proofs.«164427_j11673721110784_1_alg».proof.Proof.Ref
import proofs.«164427_j11673721110784_1_alg».proof.Proof.Algebra
import proofs.«164427_j11673721110784_1_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does its reading at the ideal values. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories agreeing on the arguments, both programs end with the kernel's result
    function of the arguments: the kernel by its run read entry by entry, the reference because its composed term is
    `Gref`, which is `Gk` on real inputs. -/
theorem algebraic : Cert.algebraic_KernelIdeal_ReferenceIdeal := by
  intro m ρ m' ρ' hpre hagree
  refine ⟨fun c => Cert.Spec.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Hand.W4_v5 m Cert.KernelIdeal.Hand.arr0_eq Cert.KernelIdeal.Hand.arr1_eq c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hW, hb, hA, hB⟩ := Cert.Spec.finite_of_pre _ _ _ _ _ (hpre c)
    rw [Cert.ReferenceIdeal.Read.val_main_v8_eq, Cert.ReferenceIdeal.RefValue.ref_eq,
      (hagree c).1, (hagree c).2.1, (hagree c).2.2.1, (hagree c).2.2.2.1, (hagree c).2.2.2.2]
    exact (Cert.Spec.Gk_eq_Gref _ _ _ _ _ hx hW hb hA hB).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
